-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S1024x1024 : Shape := ⟨2, ![1024, 1024]⟩
abbrev S16x1024 : Shape := ⟨2, ![16, 1024]⟩
abbrev S1x1024 : Shape := ⟨2, ![1, 1024]⟩
abbrev S1024x16 : Shape := ⟨2, ![1024, 16]⟩

abbrev nBuf : Space → Nat
  | .hbm => 10
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S16x4096, .f32⟩
  | .hbm, ⟨8, _⟩ => ⟨S8192x4096, .f32⟩
  | .hbm, ⟨9, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  transposes_S4096x16_S16x4096_1_0 : S4096x16.Transposes [1, 0] S16x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  dot_S1024x1024_S16x1024_S1024x16_1_1_0_0_n_n_wf : DotDims.WF S1024x1024 S16x1024 S1024x16 [1] [1] [0] [0] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .f32 = 32 ∨ (Rect.block (s := S16x4096) S16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S16x1024_S1024x16_1_1_0_0_n_n : DotDims S1024x1024 S16x1024 S1024x16 where
  lhsContracting := [1]
  rhsContracting := [1]
  lhsNonContracting := [0]
  rhsNonContracting := [0]
  lhsBatch := []
  rhsBatch := []
  wf := dot_S1024x1024_S16x1024_S1024x16_1_1_0_0_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What one run of the kernel body leaves behind, case by case, as pure terms of what it was handed.
  The body keeps two accumulators between grid points: `acc` (1024 x 1024: the base product) and `accxa`
  (1024 x 16: the projection onto the rank-16 factor). With x, w, a the point's blocks of the input, W and A:
    first stretch (case A):   acc := zero + x wᵀ,        accxa := zero + x aᵀ      (each reset, then updated);
    middle stretches (case B): acc := acc + x wᵀ,         accxa := accxa + x aᵀ;
    last stretch (case C):     the same updates, and the output block is
                               (acc' + (accxa' bt) * 2) + bias   of the UPDATED accumulators acc', accxa'.
  Each is one whole-buffer store (the reset and the update in case A are two, the later covering), so the
  buffer ends at the stored value, whose loads read the whole buffers handed in.
-/
import proofs.«137640_j32100585571129_1_alg».proof.Proof.Gen.KernelIdeal.Frame
import Idealize.ShloMosaic.Lib.Pipeline.Value
import Idealize.ShloMosaic.Lib.Tactic

set_option maxRecDepth 16384

noncomputable section

namespace Cert.KernelIdeal.Lora

open Cert.KernelIdeal Cert.KernelIdeal.Gen Idealize.ShloMosaic Idealize.ShloMosaic.TcCoe Idealize.ShloMosaic.Tactic Idealize.SL.Sem

variable {F : FTy → Type} [FloatOps F]

/-- Every load and store of the body is at offset zero of its buffer. -/
theorem hz : (![0, 0] : Fin 2 → Nat) = fun _ => 0 := funext fun a => by fin_cases a <;> rfl

/-- First stretch: the base accumulator is reset to zero and then takes the stretch's product. -/
theorem acc_first (c : Dev nD) (i : grid0.Coords) (a3 : Memref sig .tc .vmem S1024x1024 .f32) (h3 : a3.IsWhole) (a4 : Memref sig .tc .vmem S1024x1024 .f32) (h4 : a4.IsWhole) (a5 : Memref sig .tc .vmem S16x1024 .f32) (h5 : a5.IsWhole) (a6 : Memref sig .tc .vmem S16x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : cond0_0 i) (hc1 : ¬cond0_1 i) (x0 : Vec F S1024x1024 .f32) (x1 : Vec F S1024x1024 .f32) (x2 : Vec F S16x1024 .f32) (x3 : Vec F S16x1024 .f32) (x4 : Vec F S1x1024 .f32) :
    sout0_A_0 c i a3 h3 a4 h4 a5 h5 a6 h6 a7 h7 a8 h8 a9 h9 a10 h10 hc0 hc1 x0 x1 x2 x3 x4 = k0_pay4 x0 x1 (k0_pay1 (F := F)) := by
  unfold sout0_A_0
  rw [View.read_writes_eq_canon _ _ _ (scover0_A_0 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1024x1024) hz]
  simp only [View.readAt_eq_ld, h3.read_unread, h4.read_unread, h5.read_unread, h6.read_unread, h7.read_unread, h9.read_unread, h10.read_unread, View.ld_unit_zero (S := S1024x1024) hz, View.ld_unit_zero (S := S16x1024) hz, View.ld_unit_zero (S := S1x1024) hz, View.ld_unit_zero (S := S1024x16) hz, View.readCov_unit_zero (S := S1024x1024) _ hz, View.readCov_unit_zero (S := S1024x16) _ hz]

/-- First stretch: the projection accumulator likewise. -/
theorem accxa_first (c : Dev nD) (i : grid0.Coords) (a3 : Memref sig .tc .vmem S1024x1024 .f32) (h3 : a3.IsWhole) (a4 : Memref sig .tc .vmem S1024x1024 .f32) (h4 : a4.IsWhole) (a5 : Memref sig .tc .vmem S16x1024 .f32) (h5 : a5.IsWhole) (a6 : Memref sig .tc .vmem S16x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : cond0_0 i) (hc1 : ¬cond0_1 i) (x0 : Vec F S1024x1024 .f32) (x1 : Vec F S1024x1024 .f32) (x2 : Vec F S16x1024 .f32) (x3 : Vec F S16x1024 .f32) (x4 : Vec F S1x1024 .f32) :
    sout0_A_1 c i a3 h3 a4 h4 a5 h5 a6 h6 a7 h7 a8 h8 a9 h9 a10 h10 hc0 hc1 x0 x1 x2 x3 x4 = k0_pay5 x0 x2 (k0_pay2 (F := F)) := by
  unfold sout0_A_1
  rw [View.read_writes_eq_canon _ _ _ (scover0_A_1 c i a3 h3 a4 h4 a5 h5 a6 h6 a7 h7 a8 h8 a9 h9 a10 h10 hc0 hc1 x0 x1 x2 x3 x4)]
  unfold kernelRun0_A
  dsimp only
  sl_unfold_words
  rw [View.canon_cons_unit_zero (S := S1024x16) hz]
  simp only [View.readAt_eq_ld, h3.read_unread, h4.read_unread, h5.read_unread, h6.read_unread, h7.read_unread, h9.read_unread, h10.read_unread, View.ld_unit_zero (S := S1024x1024) hz, View.ld_unit_zero (S := S16x1024) hz, View.ld_unit_zero (S := S1x1024) hz, View.ld_unit_zero (S := S1024x16) hz, View.readCov_unit_zero (S := S1024x1024) _ hz, View.readCov_unit_zero (S := S1024x16) _ hz]

/-- A middle stretch adds its product to the base accumulator it found. -/
theorem acc_middle (c : Dev nD) (i : grid0.Coords) (a3 : Memref sig .tc .vmem S1024x1024 .f32) (h3 : a3.IsWhole) (a4 : Memref sig .tc .vmem S1024x1024 .f32) (h4 : a4.IsWhole) (a5 : Memref sig .tc .vmem S16x1024 .f32) (h5 : a5.IsWhole) (a6 : Memref sig .tc .vmem S16x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : ¬cond0_1 i) (x0 : Vec F S1024x1024 .f32) (x1 : Vec F S1024x1024 .f32) (x2 : Vec F S16x1024 .f32) (x3 : Vec F S16x1024 .f32) (x4 : Vec F S1x1024 .f32) (xs0 : Vec F S1024x1024 .f32) (xs1 : Vec F S1024x16 .f32) :
    sout0_B_0 c i a3 h3 a4 h4 a5 h5 a6 h6 a7 h7 a8 h8 a9 h9 a10 h10 hc0 hc1 x0 x1 x2 x3 x4 xs0 xs1 = k0_pay4 x0 x1 xs0 := by
  unfold sout0_B_0
  rw [View.read_writes_eq_canon _ _ _ (scover0_B_0 c i a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz]
  simp only [View.readAt_eq_ld, h3.read_unread, h4.read_unread, h5.read_unread, h6.read_unread, h7.read_unread, h9.read_unread, h10.read_unread, View.ld_unit_zero (S := S1024x1024) hz, View.ld_unit_zero (S := S16x1024) hz, View.ld_unit_zero (S := S1x1024) hz, View.ld_unit_zero (S := S1024x16) hz, View.readCov_unit_zero (S := S1024x1024) _ hz, View.readCov_unit_zero (S := S1024x16) _ hz]

/-- A middle stretch adds its projection to the projection accumulator it found. -/
theorem accxa_middle (c : Dev nD) (i : grid0.Coords) (a3 : Memref sig .tc .vmem S1024x1024 .f32) (h3 : a3.IsWhole) (a4 : Memref sig .tc .vmem S1024x1024 .f32) (h4 : a4.IsWhole) (a5 : Memref sig .tc .vmem S16x1024 .f32) (h5 : a5.IsWhole) (a6 : Memref sig .tc .vmem S16x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : ¬cond0_1 i) (x0 : Vec F S1024x1024 .f32) (x1 : Vec F S1024x1024 .f32) (x2 : Vec F S16x1024 .f32) (x3 : Vec F S16x1024 .f32) (x4 : Vec F S1x1024 .f32) (xs0 : Vec F S1024x1024 .f32) (xs1 : Vec F S1024x16 .f32) :
    sout0_B_1 c i a3 h3 a4 h4 a5 h5 a6 h6 a7 h7 a8 h8 a9 h9 a10 h10 hc0 hc1 x0 x1 x2 x3 x4 xs0 xs1 = k0_pay5 x0 x2 xs1 := by
  unfold sout0_B_1
  rw [View.read_writes_eq_canon _ _ _ (scover0_B_1 c i a3 h3 a4 h4 a5 h5 a6 h6 a7 h7 a8 h8 a9 h9 a10 h10 hc0 hc1 x0 x1 x2 x3 x4 xs0 xs1)]
  unfold kernelRun0_B
  dsimp only
  sl_unfold_words
  rw [View.canon_unit_zero hz]
  simp only [View.readAt_eq_ld, h3.read_unread, h4.read_unread, h5.read_unread, h6.read_unread, h7.read_unread, h9.read_unread, h10.read_unread, View.ld_unit_zero (S := S1024x1024) hz, View.ld_unit_zero (S := S16x1024) hz, View.ld_unit_zero (S := S1x1024) hz, View.ld_unit_zero (S := S1024x16) hz, View.readCov_unit_zero (S := S1024x1024) _ hz, View.readCov_unit_zero (S := S1024x16) _ hz]

/-- The last stretch updates the base accumulator the same way … -/
theorem acc_last (c : Dev nD) (i : grid0.Coords) (a3 : Memref sig .tc .vmem S1024x1024 .f32) (h3 : a3.IsWhole) (a4 : Memref sig .tc .vmem S1024x1024 .f32) (h4 : a4.IsWhole) (a5 : Memref sig .tc .vmem S16x1024 .f32) (h5 : a5.IsWhole) (a6 : Memref sig .tc .vmem S16x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : cond0_1 i) (x0 : Vec F S1024x1024 .f32) (x1 : Vec F S1024x1024 .f32) (x2 : Vec F S16x1024 .f32) (x3 : Vec F S16x1024 .f32) (x4 : Vec F S1x1024 .f32) (xs0 : Vec F S1024x1024 .f32) (xs1 : Vec F S1024x16 .f32) :
    sout0_C_0 c i a3 h3 a4 h4 a5 h5 a6 h6 a7 h7 a8 h8 a9 h9 a10 h10 hc0 hc1 x0 x1 x2 x3 x4 xs0 xs1 = k0_pay4 x0 x1 xs0 := by
  unfold sout0_C_0
  rw [View.read_writes_eq_canon _ _ _ (scover0_C_0 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h4.read_unread, h5.read_unread, h6.read_unread, h7.read_unread, h9.read_unread, h10.read_unread, View.ld_unit_zero (S := S1024x1024) hz, View.ld_unit_zero (S := S16x1024) hz, View.ld_unit_zero (S := S1x1024) hz, View.ld_unit_zero (S := S1024x16) hz, View.readCov_unit_zero (S := S1024x1024) _ hz, View.readCov_unit_zero (S := S1024x16) _ hz]

/-- … and the projection accumulator … -/
theorem accxa_last (c : Dev nD) (i : grid0.Coords) (a3 : Memref sig .tc .vmem S1024x1024 .f32) (h3 : a3.IsWhole) (a4 : Memref sig .tc .vmem S1024x1024 .f32) (h4 : a4.IsWhole) (a5 : Memref sig .tc .vmem S16x1024 .f32) (h5 : a5.IsWhole) (a6 : Memref sig .tc .vmem S16x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : cond0_1 i) (x0 : Vec F S1024x1024 .f32) (x1 : Vec F S1024x1024 .f32) (x2 : Vec F S16x1024 .f32) (x3 : Vec F S16x1024 .f32) (x4 : Vec F S1x1024 .f32) (xs0 : Vec F S1024x1024 .f32) (xs1 : Vec F S1024x16 .f32) :
    sout0_C_1 c i a3 h3 a4 h4 a5 h5 a6 h6 a7 h7 a8 h8 a9 h9 a10 h10 hc0 hc1 x0 x1 x2 x3 x4 xs0 xs1 = k0_pay5 x0 x2 xs1 := by
  unfold sout0_C_1
  rw [View.read_writes_eq_canon _ _ _ (scover0_C_1 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h4.read_unread, h5.read_unread, h6.read_unread, h7.read_unread, h9.read_unread, h10.read_unread, View.ld_unit_zero (S := S1024x1024) hz, View.ld_unit_zero (S := S16x1024) hz, View.ld_unit_zero (S := S1x1024) hz, View.ld_unit_zero (S := S1024x16) hz, View.readCov_unit_zero (S := S1024x1024) _ hz, View.readCov_unit_zero (S := S1024x16) _ hz]

/-- … and writes the output block from the two UPDATED accumulators, the B-transposed block and the bias block. -/
theorem out_last (c : Dev nD) (i : grid0.Coords) (a3 : Memref sig .tc .vmem S1024x1024 .f32) (h3 : a3.IsWhole) (a4 : Memref sig .tc .vmem S1024x1024 .f32) (h4 : a4.IsWhole) (a5 : Memref sig .tc .vmem S16x1024 .f32) (h5 : a5.IsWhole) (a6 : Memref sig .tc .vmem S16x1024 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (a10 : Memref sig .tc .vmem S1024x16 .f32) (h10 : a10.IsWhole) (hc0 : ¬cond0_0 i) (hc1 : cond0_1 i) (x0 : Vec F S1024x1024 .f32) (x1 : Vec F S1024x1024 .f32) (x2 : Vec F S16x1024 .f32) (x3 : Vec F S16x1024 .f32) (x4 : Vec F S1x1024 .f32) (xs0 : Vec F S1024x1024 .f32) (xs1 : Vec F S1024x16 .f32) :
    out0_C_5 c i a3 h3 a4 h4 a5 h5 a6 h6 a7 h7 a8 h8 a9 h9 a10 h10 hc0 hc1 x0 x1 x2 x3 x4 xs0 xs1 = k0_pay6 x3 (k0_pay5 x0 x2 xs1) x4 (k0_pay4 x0 x1 xs0) := by
  unfold out0_C_5
  rw [View.read_writes_eq_canon _ _ _ (cover0_C_5 c i a3 h3 a4 h4 a5 h5 a6 h6 a7 h7 a8 h8 a9 h9 a10 h10 hc0 hc1 x0 x1 x2 x3 x4 xs0 xs1)]
  unfold kernelRun0_C
  dsimp only
  sl_unfold_words
  rw [View.canon_unit_zero hz]
  simp only [View.readAt_eq_ld, h3.read_unread, h4.read_unread, h5.read_unread, h6.read_unread, h7.read_unread, h9.read_unread, h10.read_unread, View.ld_unit_zero (S := S1024x1024) hz, View.ld_unit_zero (S := S16x1024) hz, View.ld_unit_zero (S := S1x1024) hz, View.ld_unit_zero (S := S1024x16) hz, View.readCov_unit_zero (S := S1024x1024) _ hz, View.readCov_unit_zero (S := S1024x16) _ hz]

end Cert.KernelIdeal.Lora

end
-- ==== Proof.Spec.lean ====
/-
  The low-rank-adapted linear layer as pure functions over the extended reals, and the algebra that joins its two
  arrangements.

  With M = 4 * 2048 = 8192 rows, contraction extent 4096 and rank 16, the layer is
      out[r, o] = sum_d x[r, d] * W[o, d]  +  b[o]  +  2 * sum_k (sum_d x[r, d] * A[k, d]) * B[o, k].
  `layer3` is this in the order (base + bias) + delta * 2 over the three-axis input; `layer2` is it over the
  flattened rows in the order (base + delta * 2) + bias, with B given transposed and the bias as a one-row matrix.
  They agree because addition of extended reals is commutative and associative (`layer2_eq_layer3`): no
  distributivity or cancellation is needed, so nothing is asked of the entries' finiteness.
  A contraction sum over 4096 positions is the sum over its four stretches of 1024 (`sum_stretches`).
-/
import Idealize.ShloMosaic.Lib.ValueIdx
import Mathlib.Algebra.BigOperators.Fin
import Mathlib.Algebra.BigOperators.Intervals
import Mathlib.Logic.Equiv.Fin.Basic

noncomputable section

open scoped BigOperators

namespace Cert.Lora

open Idealize.ShloMosaic Idealize.ShloMosaic.ValueIdx

/-- A matrix of extended reals on the rank-2 index set of extents `n0`, `n1`. -/
abbrev Mat (n0 n1 : ℕ) : Type := (⟨2, ![n0, n1]⟩ : Shape).Idx → EReal

/-- The scaling factor alpha / r = 32 / 16, as the f32 word of 2.0 that both programs carry. -/
abbrev two : EReal := Ideal.ofBits .f32 0x40000000#32

/-- Entry (r, c) of a matrix by natural-number coordinates, zero outside its extents: sums over stretches of
    a row can then be written without carrying range proofs. -/
def ent (n0 n1 : ℕ) (f : Mat n0 n1) (r c : ℕ) : EReal :=
  if h : r < n0 ∧ c < n1 then f (ix2 ⟨r, h.1⟩ ⟨c, h.2⟩) else 0

theorem ent_of_lt (n0 n1 : ℕ) (f : Mat n0 n1) (r c : ℕ) (hr : r < n0) (hc : c < n1) :
    ent n0 n1 f r c = f (ix2 ⟨r, hr⟩ ⟨c, hc⟩) := dif_pos ⟨hr, hc⟩

/-- The layer over flattened rows, in the order (base + delta * 2) + bias; `Bt` is B transposed. -/
def layer2 (X : Mat 8192 4096) (W : Mat 4096 4096) (A Bt : Mat 16 4096) (bias : Mat 1 4096)
    (r : Fin 8192) (o : Fin 4096) : EReal :=
  ((∑ d : Fin 4096, X (ix2 r d) * W (ix2 o d))
      + (∑ k : Fin 16, (∑ d : Fin 4096, X (ix2 r d) * A (ix2 k d)) * Bt (ix2 k o)) * two)
    + bias (ix2 (0 : Fin 1) o)

/-- The layer over the three-axis input, in the order (base + bias) + delta * 2. -/
def layer3 (x : (⟨3, ![4, 2048, 4096]⟩ : Shape).Idx → EReal) (W : Mat 4096 4096)
    (b : (⟨1, ![4096]⟩ : Shape).Idx → EReal) (A : Mat 16 4096) (B : Mat 4096 16)
    (bb : Fin 4) (s : Fin 2048) (o : Fin 4096) : EReal :=
  ((∑ d : Fin 4096, x (ix3 bb s d) * W (ix2 o d)) + b (ix1 o))
    + (∑ k : Fin 16, (∑ d : Fin 4096, x (ix3 bb s d) * A (ix2 k d)) * B (ix2 o k)) * two

/-- Row `bb * 2048 + s` of the flattened input is row (bb, s) of the input, B transposed is B with its
    coordinates exchanged, the one-row bias is the bias: then the two arrangements are equal, by commuting the
    last two summands. -/
theorem layer2_eq_layer3 (X : Mat 8192 4096) (W : Mat 4096 4096) (A Bt : Mat 16 4096) (bias : Mat 1 4096)
    (x : (⟨3, ![4, 2048, 4096]⟩ : Shape).Idx → EReal) (b : (⟨1, ![4096]⟩ : Shape).Idx → EReal) (B : Mat 4096 16)
    (bb : Fin 4) (s : Fin 2048) (o : Fin 4096) (r : Fin 8192)
    (hX : ∀ d : Fin 4096, X (ix2 r d) = x (ix3 bb s d))
    (hB : ∀ k : Fin 16, Bt (ix2 k o) = B (ix2 o k))
    (hb : bias (ix2 (0 : Fin 1) o) = b (ix1 o)) :
    layer2 X W A Bt bias r o = layer3 x W b A B bb s o := by
  unfold layer2 layer3
  simp only [hX, hB, hb]
  exact add_right_comm _ _ _

/-- The contraction axis cut in four: position `kb * 1024 + kk` of stretch `kb`, offset `kk`, runs over
    every position below 4096 exactly once. -/
theorem sum_stretches {M : Type*} [AddCommMonoid M] (g : ℕ → M) :
    ∑ kb ∈ Finset.range 4, ∑ kk : Fin 1024, g (kb * 1024 + kk.val) = ∑ d : Fin 4096, g d.val := by
  rw [Finset.sum_range (fun kb => ∑ kk : Fin 1024, g (kb * 1024 + kk.val))]
  rw [← Fintype.sum_prod_type' (fun (kb : Fin 4) (kk : Fin 1024) => g (kb.val * 1024 + kk.val))]
  rw [← Equiv.sum_comp (finProdFinEquiv (m := 4) (n := 1024)) (fun d : Fin (4 * 1024) => g d.val)]
  refine Finset.sum_congr rfl fun x _ => ?_
  show g (x.1.val * 1024 + x.2.val) = g ((finProdFinEquiv x).val)
  congr 1
  show x.1.val * 1024 + x.2.val = x.2.val + 1024 * x.1.val
  omega

end Cert.Lora

end
-- ==== Proof.Blocks.lean ====
/-
  Where each window's block sits in its array. The grid has 8 * 4 * 4 = 128 points, the contraction stretch
  innermost: point t is (row block t / 16, column block t / 4 % 4, stretch t % 4). At point t the kernel is handed
  rows [1024 * (t / 16), +1024) and columns [1024 * (t % 4), +1024) of the flattened input, rows
  [1024 * (t / 4 % 4), +1024) and the same columns of W, all 16 rows and the same columns of A, all 16 rows and
  columns [1024 * (t / 4 % 4), +1024) of B transposed, and those columns of the one-row bias.
-/
import proofs.«137640_j32100585571129_1_alg».proof.Proof.Gen.KernelIdeal.Frame
import proofs.«137640_j32100585571129_1_alg».proof.Proof.Spec
import Idealize.ShloMosaic.Lib.Pipeline.Value
import Idealize.ShloMosaic.Lib.ValueIdx

set_option maxRecDepth 16384

noncomputable section

namespace Cert.KernelIdeal.Lora

open Cert.KernelIdeal Cert.KernelIdeal.Gen Idealize.ShloMosaic Idealize.ShloMosaic.TcCoe Idealize.SL.Sem
open Idealize.ShloMosaic.ValueIdx Cert.Lora

variable {F : FTy → Type} [FloatOps F]
variable (m : (ℓ : Loc nD τ sig) → Buf (Elt F) ℓ)

/-- The five arrays the region reads, as it finds them: the flattened input, W, A, B transposed, the one-row bias. -/
abbrev xarr (c : Dev nD) : Vec F S8192x4096 .f32 := V m c main_v0
abbrev warr (c : Dev nD) : Vec F S4096x4096 .f32 := V m c main_arg1
abbrev aarr (c : Dev nD) : Vec F S16x4096 .f32 := V m c main_arg3
abbrev btarr (c : Dev nD) : Vec F S16x4096 .f32 := V m c main_v2
abbrev biasarr (c : Dev nD) : Vec F S1x4096 .f32 := V m c main_v1

/-- Their blocks at a grid point. -/
abbrev xblk (c : Dev nD) (t : Fin cfg0.N) : Vec F S1024x1024 .f32 := iblk m c 0 t
abbrev wblk (c : Dev nD) (t : Fin cfg0.N) : Vec F S1024x1024 .f32 := iblk m c 1 t
abbrev ablk (c : Dev nD) (t : Fin cfg0.N) : Vec F S16x1024 .f32 := iblk m c 2 t
abbrev btblk (c : Dev nD) (t : Fin cfg0.N) : Vec F S16x1024 .f32 := iblk m c 3 t
abbrev biasblk (c : Dev nD) (t : Fin cfg0.N) : Vec F S1x1024 .f32 := iblk m c 4 t

/-- The block indices of the six windows at point t, in closed form; decided over the 128 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val % 4
    ∧ win0_3.index t (0 : Fin 2) = 0 ∧ win0_3.index t (1 : Fin 2) = t.val / 4 % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

theorem lt_N (t : Fin cfg0.N) : t.val < 128 := lt_of_lt_of_eq t.isLt (show cfg0.N = 128 from N_0)

end Cert.KernelIdeal.Lora

/-! The block entries, at the ideal instance, by natural-number coordinates. -/

namespace Cert.KernelIdeal.Lora

open Cert.KernelIdeal Cert.KernelIdeal.Gen Idealize.ShloMosaic Idealize.ShloMosaic.TcCoe Idealize.SL.Sem
open Idealize.ShloMosaic.ValueIdx Cert.Lora

variable (m : (ℓ : Loc nD τ sig) → Buf (Elt Ideal) ℓ)

theorem xblk_apply (c : Dev nD) (t : Fin cfg0.N) (p kk : Fin 1024) :
    xblk m c t (ix2 p kk) = ent 8192 4096 (xarr m c) (t.val / 16 * 1024 + p.val) (t.val % 4 * 1024 + kk.val) := by
  obtain ⟨e0, e1, -⟩ := idx_facts t
  have hN := lt_N t
  rw [ent_of_lt 8192 4096 (xarr m c) _ _ (by omega) (by omega)]
  show ((cfg0.win 0).blk t).view.read (Elt Ideal) (V m c (Pipeline.arrRef spec0 0)) (ix2 p kk) = _
  rw [View.read_apply]
  show V m c main_v0 _ = V m c main_v0 _
  congr 1
  funext a; apply Fin.ext
  match a with
  | ⟨0, _⟩ => show win0_0.index t (0 : Fin 2) * 1024 + 1 * p.val = t.val / 16 * 1024 + p.val; rw [e0]; omega
  | ⟨1, _⟩ => show win0_0.index t (1 : Fin 2) * 1024 + 1 * kk.val = t.val % 4 * 1024 + kk.val; rw [e1]; omega

theorem wblk_apply (c : Dev nD) (t : Fin cfg0.N) (q kk : Fin 1024) :
    wblk m c t (ix2 q kk) = ent 4096 4096 (warr m c) (t.val / 4 % 4 * 1024 + q.val) (t.val % 4 * 1024 + kk.val) := by
  obtain ⟨-, -, e0, e1, -⟩ := idx_facts t
  have hN := lt_N t
  rw [ent_of_lt 4096 4096 (warr m c) _ _ (by omega) (by omega)]
  show ((cfg0.win 1).blk t).view.read (Elt Ideal) (V m c (Pipeline.arrRef spec0 1)) (ix2 q kk) = _
  rw [View.read_apply]
  show V m c main_arg1 _ = V m c main_arg1 _
  congr 1
  funext a; apply Fin.ext
  match a with
  | ⟨0, _⟩ => show win0_1.index t (0 : Fin 2) * 1024 + 1 * q.val = t.val / 4 % 4 * 1024 + q.val; rw [e0]; omega
  | ⟨1, _⟩ => show win0_1.index t (1 : Fin 2) * 1024 + 1 * kk.val = t.val % 4 * 1024 + kk.val; rw [e1]; omega

theorem ablk_apply (c : Dev nD) (t : Fin cfg0.N) (k : Fin 16) (kk : Fin 1024) :
    ablk m c t (ix2 k kk) = ent 16 4096 (aarr m c) k.val (t.val % 4 * 1024 + kk.val) := by
  obtain ⟨-, -, -, -, e0, e1, -⟩ := idx_facts t
  have hN := lt_N t
  rw [ent_of_lt 16 4096 (aarr m c) _ _ k.isLt (by omega)]
  show ((cfg0.win 2).blk t).view.read (Elt Ideal) (V m c (Pipeline.arrRef spec0 2)) (ix2 k kk) = _
  rw [View.read_apply]
  show V m c main_arg3 _ = V m c main_arg3 _
  congr 1
  funext a; apply Fin.ext
  match a with
  | ⟨0, _⟩ => show win0_2.index t (0 : Fin 2) * 16 + 1 * k.val = k.val; rw [e0]; omega
  | ⟨1, _⟩ => show win0_2.index t (1 : Fin 2) * 1024 + 1 * kk.val = t.val % 4 * 1024 + kk.val; rw [e1]; omega

theorem btblk_apply (c : Dev nD) (t : Fin cfg0.N) (k : Fin 16) (q : Fin 1024) :
    btblk m c t (ix2 k q) = ent 16 4096 (btarr m c) k.val (t.val / 4 % 4 * 1024 + q.val) := by
  obtain ⟨-, -, -, -, -, -, e0, e1, -⟩ := idx_facts t
  have hN := lt_N t
  rw [ent_of_lt 16 4096 (btarr m c) _ _ k.isLt (by omega)]
  show ((cfg0.win 3).blk t).view.read (Elt Ideal) (V m c (Pipeline.arrRef spec0 3)) (ix2 k q) = _
  rw [View.read_apply]
  show V m c main_v2 _ = V m c main_v2 _
  congr 1
  funext a; apply Fin.ext
  match a with
  | ⟨0, _⟩ => show win0_3.index t (0 : Fin 2) * 16 + 1 * k.val = k.val; rw [e0]; omega
  | ⟨1, _⟩ => show win0_3.index t (1 : Fin 2) * 1024 + 1 * q.val = t.val / 4 % 4 * 1024 + q.val; rw [e1]; omega

theorem biasblk_apply (c : Dev nD) (t : Fin cfg0.N) (q : Fin 1024) :
    biasblk m c t (ix2 (0 : Fin 1) q) = ent 1 4096 (biasarr m c) 0 (t.val / 4 % 4 * 1024 + q.val) := by
  obtain ⟨-, -, -, -, -, -, -, -, e0, e1, -⟩ := idx_facts t
  have hN := lt_N t
  rw [ent_of_lt 1 4096 (biasarr m c) _ _ (by omega) (by omega)]
  show ((cfg0.win 4).blk t).view.read (Elt Ideal) (V m c (Pipeline.arrRef spec0 4)) (ix2 (0 : Fin 1) q) = _
  rw [View.read_apply]
  show V m c main_v1 _ = V m c main_v1 _
  congr 1
  funext a; apply Fin.ext
  match a with
  | ⟨0, _⟩ => show win0_4.index t (0 : Fin 2) * 1 + 1 * 0 = 0; rw [e0]
  | ⟨1, _⟩ => show win0_4.index t (1 : Fin 2) * 1024 + 1 * q.val = t.val / 4 % 4 * 1024 + q.val; rw [e1]; omega

end Cert.KernelIdeal.Lora

end
-- ==== Proof.Cases.lean ====
/-
  The two accumulators and the output block after the body at grid point t, by the point's stretch t % 4:
  first (0), middle (1, 2) or last (3), over the point's blocks and what the point before left.
-/
import proofs.«137640_j32100585571129_1_alg».proof.Proof.Pieces
import proofs.«137640_j32100585571129_1_alg».proof.Proof.Blocks

set_option maxRecDepth 16384

noncomputable section

namespace Cert.KernelIdeal.Lora

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- At a first stretch both accumulators start from zero. -/
theorem outs_first (c : Dev nD) (t : Fin cfg0.N) (h0 : t.val % 4 = 0) (h1 : ¬t.val % 4 = 3) :
    (outsAt0 m c t.val t.isLt).2.1 = k0_pay4 (xblk m c t) (wblk m c t) (k0_pay1 (F := F))
    ∧ (outsAt0 m c t.val t.isLt).2.2 = k0_pay5 (xblk m c t) (ablk m c t) (k0_pay2 (F := F)) := by
  rw [outsAt0_A m c t h0 h1]
  dsimp only
  exact ⟨acc_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t),
    accxa_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)⟩

/-- At a middle stretch each accumulator extends what the point before left. -/
theorem outs_middle (c : Dev nD) (t : Fin cfg0.N) (h0 : ¬t.val % 4 = 0) (h1 : ¬t.val % 4 = 3) :
    (outsAt0 m c t.val t.isLt).2.1 = k0_pay4 (xblk m c t) (wblk m c t) (outsAt0 m c (t.val - 1) (Nat.lt_of_le_of_lt (Nat.sub_le _ _) t.isLt)).2.1
    ∧ (outsAt0 m c t.val t.isLt).2.2 = k0_pay5 (xblk m c t) (ablk m c t) (outsAt0 m c (t.val - 1) (Nat.lt_of_le_of_lt (Nat.sub_le _ _) t.isLt)).2.2 := by
  rw [outsAt0_B m c t h0 h1]
  dsimp only
  exact ⟨acc_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    accxa_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2⟩

/-- At a last stretch likewise, and the output block is written from the updated accumulators. -/
theorem outs_last (c : Dev nD) (t : Fin cfg0.N) (h0 : ¬t.val % 4 = 0) (h1 : t.val % 4 = 3) :
    (outsAt0 m c t.val t.isLt).2.1 = k0_pay4 (xblk m c t) (wblk m c t) (outsAt0 m c (t.val - 1) (Nat.lt_of_le_of_lt (Nat.sub_le _ _) t.isLt)).2.1
    ∧ (outsAt0 m c t.val t.isLt).2.2 = k0_pay5 (xblk m c t) (ablk m c t) (outsAt0 m c (t.val - 1) (Nat.lt_of_le_of_lt (Nat.sub_le _ _) t.isLt)).2.2
    ∧ (outsAt0 m c t.val t.isLt).1 = k0_pay6 (btblk m c t) (k0_pay5 (xblk m c t) (ablk m c t) (outsAt0 m c (t.val - 1) (Nat.lt_of_le_of_lt (Nat.sub_le _ _) t.isLt)).2.2) (biasblk m c t)
        (k0_pay4 (xblk m c t) (wblk m c t) (outsAt0 m c (t.val - 1) (Nat.lt_of_le_of_lt (Nat.sub_le _ _) t.isLt)).2.1) := by
  rw [outsAt0_C m c t h0 h1]
  dsimp only
  exact ⟨acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    accxa_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2⟩

/-- So at a last stretch the output block is the final value of the two accumulators it sits beside. -/
theorem out_of_accs (c : Dev nD) (t : Fin cfg0.N) (h0 : ¬t.val % 4 = 0) (h1 : t.val % 4 = 3) :
    (outsAt0 m c t.val t.isLt).1 = k0_pay6 (btblk m c t) (outsAt0 m c t.val t.isLt).2.2 (biasblk m c t) (outsAt0 m c t.val t.isLt).2.1 := by
  obtain ⟨e0, e1, e2⟩ := outs_last m c t h0 h1
  rw [e2, e0, e1]

end Cert.KernelIdeal.Lora

end
-- ==== Proof.Payload.lean ====
/-
  The values the kernel body stores, read at one entry, at the ideal instance (a float is an extended real, a
  change of float format is the identity, a matrix product into a zero accumulator is the plain sum of products).
  With x, w, a, bt, bias the blocks handed to the body and acc, accxa the two accumulators:
    the two resets store zero;
    the base update stores        acc[p, q]   + sum_kk x[p, kk] * w[q, kk]     (both operands contract their second axis);
    the projection update stores  accxa[p, k] + sum_kk x[p, kk] * a[k, kk];
    the output block is           (acc[p, q] + (sum_k accxa[p, k] * bt[k, q]) * 2) + bias[0, q],
  the one-row bias repeated down the rows. Each product's contraction index has one axis and is re-indexed to that
  axis's coordinate.
-/
import proofs.«137640_j32100585571129_1_alg».proof.Proof.Gen.KernelIdeal.Skeleton
import proofs.«137640_j32100585571129_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Lora

open Cert.KernelIdeal Cert.KernelIdeal.Gen Idealize.ShloMosaic Idealize.ShloMosaic.ValueIdx

/-! ## The two zero splats -/

/-- The zero word broadcast over the block and cast to its own shape is `0` at every entry. -/
theorem pay1_apply (p q : Fin 1024) : (k0_pay1 (F := Ideal)) (ix2 p q) = 0 := by
  unfold k0_pay1
  refine (congrFun (shapeCast_self _ _) (ix2 p q)).trans ?_
  exact Ideal.ofBits_zero_f32

theorem pay2_apply (p : Fin 1024) (k : Fin 16) : (k0_pay2 (F := Ideal)) (ix2 p k) = 0 := by
  unfold k0_pay2
  refine (congrFun (shapeCast_self _ _) (ix2 p k)).trans ?_
  exact Ideal.ofBits_zero_f32

/-! ## The square product: both operands contract their second axis -/

/-- The left operand keeps the output's row on its axis 0. -/
theorem lhs_sq_0 (i : S1024x1024.Idx) (c : dot_S1024x1024_S1024x1024_S1024x1024_1_1_0_0_n_n.contr.Idx) :
    (dot_S1024x1024_S1024x1024_S1024x1024_1_1_0_0_n_n.lhsIdx i c 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand reads the contraction coordinate on its axis 1. -/
theorem lhs_sq_1 (i : S1024x1024.Idx) (c : dot_S1024x1024_S1024x1024_S1024x1024_1_1_0_0_n_n.contr.Idx) :
    (dot_S1024x1024_S1024x1024_S1024x1024_1_1_0_0_n_n.lhsIdx i c 1).val = (c ⟨0, by decide⟩).val :=
  dot_S1024x1024_S1024x1024_S1024x1024_1_1_0_0_n_n.lhsIdx_val_of_single rfl i c
/-- The right operand keeps the output's column on its axis 0. -/
theorem rhs_sq_0 (i : S1024x1024.Idx) (c : dot_S1024x1024_S1024x1024_S1024x1024_1_1_0_0_n_n.contr.Idx) :
    (dot_S1024x1024_S1024x1024_S1024x1024_1_1_0_0_n_n.rhsIdx i c 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand reads the contraction coordinate on its axis 1. -/
theorem rhs_sq_1 (i : S1024x1024.Idx) (c : dot_S1024x1024_S1024x1024_S1024x1024_1_1_0_0_n_n.contr.Idx) :
    (dot_S1024x1024_S1024x1024_S1024x1024_1_1_0_0_n_n.rhsIdx i c 1).val = (c ⟨0, by decide⟩).val :=
  dot_S1024x1024_S1024x1024_S1024x1024_1_1_0_0_n_n.rhsIdx_val_of_single rfl i c

/-- Into the zero splat the product at `(p, q)` is `∑ kk, a (p, kk) * b (q, kk)`. -/
theorem mm_sq_apply (a b : FVec Ideal S1024x1024 .bf16) (p q : Fin 1024) :
    FloatOps.matmul dot_S1024x1024_S1024x1024_S1024x1024_1_1_0_0_n_n none a b (constant (F := Ideal) S1024x1024 .f32 0x00000000#32) (ix2 p q)
      = ∑ kk : Fin 1024, a (ix2 p kk) * b (ix2 q kk) := by
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_sq_0 _ _
    | ⟨1, _⟩ => exact (lhs_sq_1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_sq_0 _ _
    | ⟨1, _⟩ => exact (rhs_sq_1 _ _).trans hk)
  rw [el, er]

theorem pay4_apply (x0 x1 acc : Vec Ideal S1024x1024 .f32) (p q : Fin 1024) :
    k0_pay4 x0 x1 acc (ix2 p q) = acc (ix2 p q) + ∑ kk : Fin 1024, x0 (ix2 p kk) * x1 (ix2 q kk) := by
  unfold k0_pay4 k0_pay3
  refine (congrFun (shapeCast_self _ _) (ix2 p q)).trans ?_
  refine congrArg (acc (ix2 p q) + ·) ?_
  have hx : shapeCast S1024x1024 x0 shapeCasts_S1024x1024_S1024x1024 = x0 := shapeCast_self _ _
  rw [hx]
  exact (mm_sq_apply _ _ p q).trans (Finset.sum_congr rfl fun kk _ => rfl)

/-! ## The projection onto the sixteen rows: both operands contract their second axis -/

/-- The left operand keeps the output's row on its axis 0. -/
theorem lhs_dn_0 (i : S1024x16.Idx) (c : dot_S1024x1024_S16x1024_S1024x16_1_1_0_0_n_n.contr.Idx) :
    (dot_S1024x1024_S16x1024_S1024x16_1_1_0_0_n_n.lhsIdx i c 0).val = (i 0).val := by
  unfold DotDims.lhsIdx
  rw [dif_neg (show ¬(0 : Fin S1024x1024.rank) ∈ dot_S1024x1024_S16x1024_S1024x16_1_1_0_0_n_n.lhsBatch by decide), dif_pos (show (0 : Fin S1024x1024.rank) ∈ dot_S1024x1024_S16x1024_S1024x16_1_1_0_0_n_n.lhsNonContracting by decide)]
  rfl
/-- The left operand reads the contraction coordinate on its axis 1. -/
theorem lhs_dn_1 (i : S1024x16.Idx) (c : dot_S1024x1024_S16x1024_S1024x16_1_1_0_0_n_n.contr.Idx) :
    (dot_S1024x1024_S16x1024_S1024x16_1_1_0_0_n_n.lhsIdx i c 1).val = (c ⟨0, by decide⟩).val :=
  dot_S1024x1024_S16x1024_S1024x16_1_1_0_0_n_n.lhsIdx_val_of_single rfl i c
/-- The right operand keeps the output's column on its axis 0. -/
theorem rhs_dn_0 (i : S1024x16.Idx) (c : dot_S1024x1024_S16x1024_S1024x16_1_1_0_0_n_n.contr.Idx) :
    (dot_S1024x1024_S16x1024_S1024x16_1_1_0_0_n_n.rhsIdx i c 0).val = (i 1).val := by
  unfold DotDims.rhsIdx
  rw [dif_neg (show ¬(0 : Fin S16x1024.rank) ∈ dot_S1024x1024_S16x1024_S1024x16_1_1_0_0_n_n.rhsBatch by decide), dif_pos (show (0 : Fin S16x1024.rank) ∈ dot_S1024x1024_S16x1024_S1024x16_1_1_0_0_n_n.rhsNonContracting by decide)]
  rfl
/-- The right operand reads the contraction coordinate on its axis 1. -/
theorem rhs_dn_1 (i : S1024x16.Idx) (c : dot_S1024x1024_S16x1024_S1024x16_1_1_0_0_n_n.contr.Idx) :
    (dot_S1024x1024_S16x1024_S1024x16_1_1_0_0_n_n.rhsIdx i c 1).val = (c ⟨0, by decide⟩).val :=
  dot_S1024x1024_S16x1024_S1024x16_1_1_0_0_n_n.rhsIdx_val_of_single rfl i c

/-- Into the zero splat the product at `(p, k)` is `∑ kk, a (p, kk) * b (k, kk)`. -/
theorem mm_dn_apply (a : FVec Ideal S1024x1024 .bf16) (b : FVec Ideal S16x1024 .bf16) (p : Fin 1024) (k : Fin 16) :
    FloatOps.matmul dot_S1024x1024_S16x1024_S1024x16_1_1_0_0_n_n none a b (constant (F := Ideal) S1024x16 .f32 0x00000000#32) (ix2 p k)
      = ∑ kk : Fin 1024, a (ix2 p kk) * b (ix2 k kk) := by
  rw [Ideal.matmul_constant_zero_apply, ← Equiv.sum_comp (ValueIdx.contrEquiv1 dot_S1024x1024_S16x1024_S1024x16_1_1_0_0_n_n 1024 rfl rfl).symm]
  refine Finset.sum_congr rfl fun kk _ => ?_
  have hk := ValueIdx.contrEquiv1_symm_val dot_S1024x1024_S16x1024_S1024x16_1_1_0_0_n_n 1024 rfl rfl kk
  have el : dot_S1024x1024_S16x1024_S1024x16_1_1_0_0_n_n.lhsIdx (ix2 p k) ((ValueIdx.contrEquiv1 dot_S1024x1024_S16x1024_S1024x16_1_1_0_0_n_n 1024 rfl rfl).symm kk) = ix2 p kk := funext fun a => Fin.ext (by
    match a with
    | ⟨0, _⟩ => exact lhs_dn_0 _ _
    | ⟨1, _⟩ => exact (lhs_dn_1 _ _).trans hk)
  have er : dot_S1024x1024_S16x1024_S1024x16_1_1_0_0_n_n.rhsIdx (ix2 p k) ((ValueIdx.contrEquiv1 dot_S1024x1024_S16x1024_S1024x16_1_1_0_0_n_n 1024 rfl rfl).symm kk) = ix2 k kk := funext fun a => Fin.ext (by
    match a with
    | ⟨0, _⟩ => exact rhs_dn_0 _ _
    | ⟨1, _⟩ => exact (rhs_dn_1 _ _).trans hk)
  rw [el, er]

theorem pay5_apply (x0 : Vec Ideal S1024x1024 .f32) (x2 : Vec Ideal S16x1024 .f32) (acc : Vec Ideal S1024x16 .f32)
    (p : Fin 1024) (k : Fin 16) :
    k0_pay5 x0 x2 acc (ix2 p k) = acc (ix2 p k) + ∑ kk : Fin 1024, x0 (ix2 p kk) * x2 (ix2 k kk) := by
  unfold k0_pay5 k0_pay3
  refine (congrFun (shapeCast_self _ _) (ix2 p k)).trans ?_
  refine congrArg (acc (ix2 p k) + ·) ?_
  have hx : shapeCast S1024x1024 x0 shapeCasts_S1024x1024_S1024x1024 = x0 := shapeCast_self _ _
  rw [hx]
  exact (mm_dn_apply _ _ p k).trans (Finset.sum_congr rfl fun kk _ => rfl)

/-! ## The expansion back: the left operand contracts its second axis, the right its first -/

/-- The left operand keeps the output's row on its axis 0. -/
theorem lhs_up_0 (i : S1024x1024.Idx) (c : dot_S1024x16_S16x1024_S1024x1024_1_0_0_1_n_n.contr.Idx) :
    (dot_S1024x16_S16x1024_S1024x1024_1_0_0_1_n_n.lhsIdx i c 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
/-- The left operand reads the contraction coordinate on its axis 1. -/
theorem lhs_up_1 (i : S1024x1024.Idx) (c : dot_S1024x16_S16x1024_S1024x1024_1_0_0_1_n_n.contr.Idx) :
    (dot_S1024x16_S16x1024_S1024x1024_1_0_0_1_n_n.lhsIdx i c 1).val = (c ⟨0, by decide⟩).val :=
  dot_S1024x16_S16x1024_S1024x1024_1_0_0_1_n_n.lhsIdx_val_of_single rfl i c
/-- The right operand reads the contraction coordinate on its axis 0. -/
theorem rhs_up_0 (i : S1024x1024.Idx) (c : dot_S1024x16_S16x1024_S1024x1024_1_0_0_1_n_n.contr.Idx) :
    (dot_S1024x16_S16x1024_S1024x1024_1_0_0_1_n_n.rhsIdx i c 0).val = (c ⟨0, by decide⟩).val :=
  dot_S1024x16_S16x1024_S1024x1024_1_0_0_1_n_n.rhsIdx_val_of_single rfl i c
/-- The right operand keeps the output's column on its axis 1. -/
theorem rhs_up_1 (i : S1024x1024.Idx) (c : dot_S1024x16_S16x1024_S1024x1024_1_0_0_1_n_n.contr.Idx) :
    (dot_S1024x16_S16x1024_S1024x1024_1_0_0_1_n_n.rhsIdx i c 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- Into the zero splat the product at `(p, q)` is `∑ k, a (p, k) * b (k, q)`. -/
theorem mm_up_apply (a : FVec Ideal S1024x16 .bf16) (b : FVec Ideal S16x1024 .bf16) (p q : Fin 1024) :
    FloatOps.matmul dot_S1024x16_S16x1024_S1024x1024_1_0_0_1_n_n none a b (constant (F := Ideal) S1024x1024 .f32 0x00000000#32) (ix2 p q)
      = ∑ k : Fin 16, a (ix2 p k) * b (ix2 k q) := by
  rw [Ideal.matmul_constant_zero_apply, ← Equiv.sum_comp (ValueIdx.contrEquiv1 dot_S1024x16_S16x1024_S1024x1024_1_0_0_1_n_n 16 rfl rfl).symm]
  refine Finset.sum_congr rfl fun k _ => ?_
  have hk := ValueIdx.contrEquiv1_symm_val dot_S1024x16_S16x1024_S1024x1024_1_0_0_1_n_n 16 rfl rfl k
  have el : dot_S1024x16_S16x1024_S1024x1024_1_0_0_1_n_n.lhsIdx (ix2 p q) ((ValueIdx.contrEquiv1 dot_S1024x16_S16x1024_S1024x1024_1_0_0_1_n_n 16 rfl rfl).symm k) = ix2 p k := funext fun a => Fin.ext (by
    match a with
    | ⟨0, _⟩ => exact lhs_up_0 _ _
    | ⟨1, _⟩ => exact (lhs_up_1 _ _).trans hk)
  have er : dot_S1024x16_S16x1024_S1024x1024_1_0_0_1_n_n.rhsIdx (ix2 p q) ((ValueIdx.contrEquiv1 dot_S1024x16_S16x1024_S1024x1024_1_0_0_1_n_n 16 rfl rfl).symm k) = ix2 k q := funext fun a => Fin.ext (by
    match a with
    | ⟨0, _⟩ => exact (rhs_up_0 _ _).trans hk
    | ⟨1, _⟩ => exact rhs_up_1 _ _)
  rw [el, er]

/-- The row vector broadcast down the rows reads, at `(p, q)`, its entry `(0, q)`. -/
theorem row_bcast_apply (v : Vec Ideal S1x1024 .f32) (p q : Fin 1024) :
    broadcastTo S1024x1024 v broadcasts_S1x1024_S1024x1024 (ix2 p q) = v (ix2 (0 : Fin 1) q) :=
  broadcastTo_apply v broadcasts_S1x1024_S1024x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

theorem pay6_apply (x3 : Vec Ideal S16x1024 .f32) (xa : Vec Ideal S1024x16 .f32) (x4 : Vec Ideal S1x1024 .f32)
    (acc : Vec Ideal S1024x1024 .f32) (p q : Fin 1024) :
    k0_pay6 x3 xa x4 acc (ix2 p q)
      = (acc (ix2 p q) + (∑ k : Fin 16, xa (ix2 p k) * x3 (ix2 k q)) * Cert.Lora.two) + x4 (ix2 (0 : Fin 1) q) := by
  unfold k0_pay6
  have h3 : shapeCast S16x1024 x3 shapeCasts_S16x1024_S16x1024 = x3 := shapeCast_self _ _
  have h4 : shapeCast S1x1024 x4 shapeCasts_S1x1024_S1x1024 = x4 := shapeCast_self _ _
  rw [h3, h4]
  show (acc (ix2 p q) + FloatOps.matmul dot_S1024x16_S16x1024_S1024x1024_1_0_0_1_n_n none (truncf .bf16 xa bitsLt_bf16_f32) (truncf .bf16 x3 bitsLt_bf16_f32) (constant (F := Ideal) S1024x1024 .f32 0x00000000#32) (ix2 p q) * Cert.Lora.two)
      + broadcastTo S1024x1024 x4 broadcasts_S1x1024_S1024x1024 (ix2 p q) = _
  rw [row_bcast_apply, mm_up_apply]
  rfl

end Cert.KernelIdeal.Lora

end
-- ==== Proof.Stretch.lean ====
/-
  The layer over flattened rows with every contraction sum cut into its four stretches of 1024 and every entry
  addressed by natural-number coordinates: the form in which the kernel accumulates it.
-/
import proofs.«137640_j32100585571129_1_alg».proof.Proof.Spec

noncomputable section

open scoped BigOperators

namespace Cert.Lora

open Idealize.ShloMosaic Idealize.ShloMosaic.ValueIdx

/-- A whole-axis inner product of two rows, by natural-number coordinates, is the sum of its four stretches. -/
theorem dot_stretches (n0 n1 : ℕ) (X : Mat n0 4096) (Wm : Mat n1 4096) (r : Fin n0) (o : Fin n1) :
    ∑ d : Fin 4096, X (ix2 r d) * Wm (ix2 o d)
      = ∑ kb ∈ Finset.range 4, ∑ kk : Fin 1024,
          ent n0 4096 X r.val (kb * 1024 + kk.val) * ent n1 4096 Wm o.val (kb * 1024 + kk.val) := by
  rw [sum_stretches (fun d => ent n0 4096 X r.val d * ent n1 4096 Wm o.val d)]
  refine Finset.sum_congr rfl fun d _ => ?_
  rw [ent_of_lt n0 4096 X r.val d.val r.isLt d.isLt, ent_of_lt n1 4096 Wm o.val d.val o.isLt d.isLt]

theorem layer2_stretches (X : Mat 8192 4096) (W : Mat 4096 4096) (A Bt : Mat 16 4096) (bias : Mat 1 4096)
    (r : Fin 8192) (o : Fin 4096) :
    layer2 X W A Bt bias r o
      = ((∑ kb ∈ Finset.range 4, ∑ kk : Fin 1024,
            ent 8192 4096 X r.val (kb * 1024 + kk.val) * ent 4096 4096 W o.val (kb * 1024 + kk.val))
          + (∑ k : Fin 16, (∑ kb ∈ Finset.range 4, ∑ kk : Fin 1024,
              ent 8192 4096 X r.val (kb * 1024 + kk.val) * ent 16 4096 A k.val (kb * 1024 + kk.val))
                * ent 16 4096 Bt k.val o.val) * two)
        + ent 1 4096 bias 0 o.val := by
  unfold layer2
  rw [dot_stretches 8192 4096 X W r o]
  have hk : ∀ k : Fin 16, (∑ d : Fin 4096, X (ix2 r d) * A (ix2 k d)) * Bt (ix2 k o)
      = (∑ kb ∈ Finset.range 4, ∑ kk : Fin 1024,
          ent 8192 4096 X r.val (kb * 1024 + kk.val) * ent 16 4096 A k.val (kb * 1024 + kk.val))
            * ent 16 4096 Bt k.val o.val := fun k => by
    rw [dot_stretches 8192 16 X A r k, ent_of_lt 16 4096 Bt k.val o.val k.isLt o.isLt]
  rw [Finset.sum_congr rfl fun k _ => hk k, ent_of_lt 1 4096 bias 0 o.val Nat.one_pos o.isLt]
  rfl

end Cert.Lora

end
-- ==== Proof.Invariant.lean ====
/-
  The two accumulators after the body at grid point n hold the partial sums over the stretches done so far.
  Point n is (row block n / 16, column block n / 4 % 4, stretch n % 4). After it,
    acc[p, q]   = sum over stretches kb <= n % 4 of  sum_kk x[1024 * (n / 16) + p, 1024 kb + kk] * W[1024 * (n / 4 % 4) + q, 1024 kb + kk],
    accxa[p, k] = sum over stretches kb <= n % 4 of  sum_kk x[1024 * (n / 16) + p, 1024 kb + kk] * A[k, 1024 kb + kk],
  by induction on n: a first stretch starts from zero; any other extends what point n - 1 left, which is in
  the same row and column block (n % 4 is not 0, so n - 1 has the same n / 16 and n / 4 % 4) at stretch n % 4 - 1.
  At a last stretch the output block is ((acc + (accxa bt) * 2) + bias) of these.
-/
import proofs.«137640_j32100585571129_1_alg».proof.Proof.Cases
import proofs.«137640_j32100585571129_1_alg».proof.Proof.Payload
import proofs.«137640_j32100585571129_1_alg».proof.Proof.Stretch

set_option maxRecDepth 16384

noncomputable section

open scoped BigOperators

namespace Cert.KernelIdeal.Lora

open Cert.KernelIdeal Cert.KernelIdeal.Gen Idealize.ShloMosaic Idealize.ShloMosaic.TcCoe Idealize.SL.Sem
open Idealize.ShloMosaic.ValueIdx Cert.Lora

variable (m : (ℓ : Loc nD τ sig) → Buf (Elt Ideal) ℓ)

/-- Stretch kb of the inner product of row r of the flattened input with row o of W. -/
def sxw (c : Dev nD) (r o kb : ℕ) : EReal :=
  ∑ kk : Fin 1024, ent 8192 4096 (xarr m c) r (kb * 1024 + kk.val) * ent 4096 4096 (warr m c) o (kb * 1024 + kk.val)

/-- Stretch kb of the inner product of row r of the flattened input with row k of A. -/
def sxa (c : Dev nD) (r k kb : ℕ) : EReal :=
  ∑ kk : Fin 1024, ent 8192 4096 (xarr m c) r (kb * 1024 + kk.val) * ent 16 4096 (aarr m c) k (kb * 1024 + kk.val)

/-- The base accumulator after point n. -/
def accAt (c : Dev nD) (n : ℕ) : Vec Ideal S1024x1024 .f32 := fun y =>
  ∑ kb ∈ Finset.range (n % 4 + 1), sxw m c (n / 16 * 1024 + (y 0).val) (n / 4 % 4 * 1024 + (y 1).val) kb

/-- The projection accumulator after point n. -/
def accxaAt (c : Dev nD) (n : ℕ) : Vec Ideal S1024x16 .f32 := fun y =>
  ∑ kb ∈ Finset.range (n % 4 + 1), sxa m c (n / 16 * 1024 + (y 0).val) (y 1).val kb

/-- One update of the base accumulator at point t adds stretch t % 4. -/
theorem acc_step (c : Dev nD) (t : Fin cfg0.N) (acc : Vec Ideal S1024x1024 .f32) (p q : Fin 1024) :
    k0_pay4 (xblk m c t) (wblk m c t) acc (ix2 p q)
      = acc (ix2 p q) + sxw m c (t.val / 16 * 1024 + p.val) (t.val / 4 % 4 * 1024 + q.val) (t.val % 4) := by
  refine (pay4_apply (xblk m c t) (wblk m c t) acc p q).trans ?_
  refine congrArg (acc (ix2 p q) + ·) ?_
  unfold sxw
  exact Finset.sum_congr rfl fun kk _ => congrArg₂ (· * ·) (xblk_apply m c t p kk) (wblk_apply m c t q kk)

/-- One update of the projection accumulator at point t adds stretch t % 4. -/
theorem accxa_step (c : Dev nD) (t : Fin cfg0.N) (acc : Vec Ideal S1024x16 .f32) (p : Fin 1024) (k : Fin 16) :
    k0_pay5 (xblk m c t) (ablk m c t) acc (ix2 p k)
      = acc (ix2 p k) + sxa m c (t.val / 16 * 1024 + p.val) k.val (t.val % 4) := by
  refine (pay5_apply (xblk m c t) (ablk m c t) acc p k).trans ?_
  refine congrArg (acc (ix2 p k) + ·) ?_
  unfold sxa
  exact Finset.sum_congr rfl fun kk _ => congrArg₂ (· * ·) (xblk_apply m c t p kk) (ablk_apply m c t k kk)

theorem acc_of_first (c : Dev nD) (t : Fin cfg0.N) (h0 : t.val % 4 = 0) :
    k0_pay4 (xblk m c t) (wblk m c t) (k0_pay1 (F := Ideal)) = accAt m c t.val := by
  funext y
  obtain ⟨p, q, rfl⟩ : ∃ (p q : Fin 1024), y = ix2 p q := ⟨y 0, y 1, eq_ix2 y⟩
  refine (acc_step m c t _ p q).trans ?_
  rw [pay1_apply, zero_add]
  show _ = ∑ kb ∈ Finset.range (t.val % 4 + 1), sxw m c (t.val / 16 * 1024 + p.val) (t.val / 4 % 4 * 1024 + q.val) kb
  rw [h0, Nat.zero_add, Finset.sum_range_one]

theorem accxa_of_first (c : Dev nD) (t : Fin cfg0.N) (h0 : t.val % 4 = 0) :
    k0_pay5 (xblk m c t) (ablk m c t) (k0_pay2 (F := Ideal)) = accxaAt m c t.val := by
  funext y
  obtain ⟨p, k, rfl⟩ : ∃ (p : Fin 1024) (k : Fin 16), y = ix2 p k := ⟨y 0, y 1, eq_ix2 y⟩
  refine (accxa_step m c t _ p k).trans ?_
  rw [pay2_apply, zero_add]
  show _ = ∑ kb ∈ Finset.range (t.val % 4 + 1), sxa m c (t.val / 16 * 1024 + p.val) k.val kb
  rw [h0, Nat.zero_add, Finset.sum_range_one]

theorem acc_of_next (c : Dev nD) (t : Fin cfg0.N) (h0 : ¬t.val % 4 = 0) :
    k0_pay4 (xblk m c t) (wblk m c t) (accAt m c (t.val - 1)) = accAt m c t.val := by
  funext y
  obtain ⟨p, q, rfl⟩ : ∃ (p q : Fin 1024), y = ix2 p q := ⟨y 0, y 1, eq_ix2 y⟩
  refine (acc_step m c t _ p q).trans ?_
  have hN := lt_N t
  show (∑ kb ∈ Finset.range ((t.val - 1) % 4 + 1), sxw m c ((t.val - 1) / 16 * 1024 + p.val) ((t.val - 1) / 4 % 4 * 1024 + q.val) kb)
        + sxw m c (t.val / 16 * 1024 + p.val) (t.val / 4 % 4 * 1024 + q.val) (t.val % 4)
      = ∑ kb ∈ Finset.range (t.val % 4 + 1), sxw m c (t.val / 16 * 1024 + p.val) (t.val / 4 % 4 * 1024 + q.val) kb
  have a1 : (t.val - 1) / 16 = t.val / 16 := by omega
  have a2 : (t.val - 1) / 4 % 4 = t.val / 4 % 4 := by omega
  have a3 : (t.val - 1) % 4 + 1 = t.val % 4 := by omega
  rw [a1, a2, a3, Finset.sum_range_succ]

theorem accxa_of_next (c : Dev nD) (t : Fin cfg0.N) (h0 : ¬t.val % 4 = 0) :
    k0_pay5 (xblk m c t) (ablk m c t) (accxaAt m c (t.val - 1)) = accxaAt m c t.val := by
  funext y
  obtain ⟨p, k, rfl⟩ : ∃ (p : Fin 1024) (k : Fin 16), y = ix2 p k := ⟨y 0, y 1, eq_ix2 y⟩
  refine (accxa_step m c t _ p k).trans ?_
  have hN := lt_N t
  show (∑ kb ∈ Finset.range ((t.val - 1) % 4 + 1), sxa m c ((t.val - 1) / 16 * 1024 + p.val) k.val kb)
        + sxa m c (t.val / 16 * 1024 + p.val) k.val (t.val % 4)
      = ∑ kb ∈ Finset.range (t.val % 4 + 1), sxa m c (t.val / 16 * 1024 + p.val) k.val kb
  have a1 : (t.val - 1) / 16 = t.val / 16 := by omega
  have a3 : (t.val - 1) % 4 + 1 = t.val % 4 := by omega
  rw [a1, a3, Finset.sum_range_succ]

/-- THE INVARIANT, by induction on the point. -/
theorem scratch_eq (c : Dev nD) : ∀ (n : ℕ) (h : n < cfg0.N),
    (outsAt0 m c n h).2.1 = accAt m c n ∧ (outsAt0 m c n h).2.2 = accxaAt m c n
  | 0, h => by
    obtain ⟨e0, e1⟩ := outs_first m c ⟨0, h⟩ rfl (by show ¬((0 : ℕ) % 4 = 3); decide)
    exact ⟨e0.trans (acc_of_first m c ⟨0, h⟩ rfl), e1.trans (accxa_of_first m c ⟨0, h⟩ rfl)⟩
  | n + 1, h => by
    obtain ⟨i0, i1⟩ := scratch_eq c n (Nat.lt_of_succ_lt h)
    by_cases h0 : (n + 1) % 4 = 0
    · have h1 : ¬(n + 1) % 4 = 3 := by omega
      obtain ⟨e0, e1⟩ := outs_first m c ⟨n + 1, h⟩ h0 h1
      exact ⟨e0.trans (acc_of_first m c ⟨n + 1, h⟩ h0), e1.trans (accxa_of_first m c ⟨n + 1, h⟩ h0)⟩
    · by_cases h1 : (n + 1) % 4 = 3
      · obtain ⟨e0, e1, -⟩ := outs_last m c ⟨n + 1, h⟩ h0 h1
        refine ⟨e0.trans ?_, e1.trans ?_⟩
        · show k0_pay4 _ _ (outsAt0 m c n _).2.1 = _
          rw [i0]; exact acc_of_next m c ⟨n + 1, h⟩ h0
        · show k0_pay5 _ _ (outsAt0 m c n _).2.2 = _
          rw [i1]; exact accxa_of_next m c ⟨n + 1, h⟩ h0
      · obtain ⟨e0, e1⟩ := outs_middle m c ⟨n + 1, h⟩ h0 h1
        refine ⟨e0.trans ?_, e1.trans ?_⟩
        · show k0_pay4 _ _ (outsAt0 m c n _).2.1 = _
          rw [i0]; exact acc_of_next m c ⟨n + 1, h⟩ h0
        · show k0_pay5 _ _ (outsAt0 m c n _).2.2 = _
          rw [i1]; exact accxa_of_next m c ⟨n + 1, h⟩ h0

end Cert.KernelIdeal.Lora

end
-- ==== Proof.Cover.lean ====
/-
  The output's blocks tile the 8192 x 4096 result: entry (r, o) lies in the block written back at the last
  stretch of row block r / 1024 and column block o / 1024, which is grid point (r / 1024 * 4 + o / 1024) * 4 + 3.
-/
import proofs.«137640_j32100585571129_1_alg».proof.Proof.Blocks
import Idealize.ShloMosaic.Lib.Pipeline.Value

set_option maxRecDepth 16384

noncomputable section

namespace Cert.KernelIdeal.Lora

open Cert.KernelIdeal Cert.KernelIdeal.Gen Idealize.ShloMosaic Idealize.ShloMosaic.TcCoe Idealize.SL.Sem
open Idealize.ShloMosaic.ValueIdx

/-- An entry of the result is in point t's block iff each coordinate is in the block's range on its axis. -/
theorem mem_blk5 (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v3).slice (win0_5.rect t)).set ↔ _
  rw [View.set_slice_whole, Rect.mem_set_unit]
  exact Iff.rfl

/-- Every entry of the result is in the block some last-stretch point writes back. -/
theorem covered5 (i : S8192x4096.Idx) :
    ∃ t : Fin cfg0.N, (cfg0.win 5).flush t = true ∧ i ∈ ((cfg0.win 5).blk t).view.set := by
  have hN : cfg0.N = 128 := N_0
  have hi0 : (i 0).val < 8192 := idx2_lt0 i
  have hi1 : (i 1).val < 4096 := idx2_lt1 i
  obtain ⟨t, ht⟩ : ∃ t : Fin cfg0.N, t.val = ((i 0).val / 1024 * 4 + (i 1).val / 1024) * 4 + 3 :=
    ⟨⟨((i 0).val / 1024 * 4 + (i 1).val / 1024) * 4 + 3, by omega⟩, rfl⟩
  obtain ⟨-, -, -, -, -, -, -, -, -, -, e0, e1⟩ := idx_facts t
  refine ⟨t, (flush0_5 t).mpr (by omega), ?_⟩
  rw [mem_blk5]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 1024 ≤ (i 1).val ∧ (i 1).val < win0_5.index t (1 : Fin 2) * 1024 + 1024
    rw [e1]; omega

/-- Where entry y of point t's output block sits in the result. -/
theorem emb5 (t : Fin cfg0.N) (p q : Fin 1024) (hr : t.val / 16 * 1024 + p.val < 8192) (hc : t.val / 4 % 4 * 1024 + q.val < 4096) :
    ((cfg0.win 5).blk t).view.emb (ix2 p q) = ix2 (⟨t.val / 16 * 1024 + p.val, hr⟩ : Fin 8192) (⟨t.val / 4 % 4 * 1024 + q.val, hc⟩ : Fin 4096) := by
  obtain ⟨-, -, -, -, -, -, -, -, -, -, e0, e1⟩ := idx_facts t
  funext a; apply Fin.ext
  match a with
  | ⟨0, _⟩ => show win0_5.index t (0 : Fin 2) * 1024 + 1 * p.val = t.val / 16 * 1024 + p.val; rw [e0]; omega
  | ⟨1, _⟩ => show win0_5.index t (1 : Fin 2) * 1024 + 1 * q.val = t.val / 4 % 4 * 1024 + q.val; rw [e1]; omega

end Cert.KernelIdeal.Lora

end
-- ==== Proof.Array.lean ====
/-
  The array the kernel call leaves. At a last stretch the two accumulators hold the complete sums over all four
  stretches, so the block written back at point t is, entry by entry, the layer over flattened rows at row
  1024 * (t / 16) + p and column 1024 * (t / 4 % 4) + q; these blocks tile the result, so the result is the layer.
-/
import proofs.«137640_j32100585571129_1_alg».proof.Proof.Invariant
import proofs.«137640_j32100585571129_1_alg».proof.Proof.Cover

set_option maxRecDepth 16384

noncomputable section

open scoped BigOperators

namespace Cert.KernelIdeal.Lora

open Cert.KernelIdeal Cert.KernelIdeal.Gen Idealize.ShloMosaic Idealize.ShloMosaic.TcCoe Idealize.SL.Sem
open Idealize.ShloMosaic.ValueIdx Cert.Lora
open Idealize.ShloMosaic.Pipeline (Dat)

variable (m : (ℓ : Loc nD τ sig) → Buf (Elt Ideal) ℓ)

/-- The layer over flattened rows, of the five arrays as the kernel call finds them. -/
def flatResult (c : Dev nD) : Vec Ideal S8192x4096 .f32 := fun i =>
  layer2 (xarr m c) (warr m c) (aarr m c) (btarr m c) (biasarr m c) ⟨(i 0).val, idx2_lt0 i⟩ ⟨(i 1).val, idx2_lt1 i⟩

/-- The output block at a last stretch, entry by entry. -/
theorem out_entry (c : Dev nD) (t : Fin cfg0.N) (h1 : t.val % 4 = 3) (p q : Fin 1024)
    (hr : t.val / 16 * 1024 + p.val < 8192) (hc : t.val / 4 % 4 * 1024 + q.val < 4096) :
    k0_pay6 (btblk m c t) (accxaAt m c t.val) (biasblk m c t) (accAt m c t.val) (ix2 p q)
      = layer2 (xarr m c) (warr m c) (aarr m c) (btarr m c) (biasarr m c)
          ⟨t.val / 16 * 1024 + p.val, hr⟩ ⟨t.val / 4 % 4 * 1024 + q.val, hc⟩ := by
  refine (pay6_apply (btblk m c t) (accxaAt m c t.val) (biasblk m c t) (accAt m c t.val) p q).trans ?_
  rw [layer2_stretches]
  have h4 : t.val % 4 + 1 = 4 := by omega
  show (∑ kb ∈ Finset.range (t.val % 4 + 1), sxw m c (t.val / 16 * 1024 + p.val) (t.val / 4 % 4 * 1024 + q.val) kb
        + (∑ k : Fin 16, (∑ kb ∈ Finset.range (t.val % 4 + 1), sxa m c (t.val / 16 * 1024 + p.val) k.val kb)
            * btblk m c t (ix2 k q)) * two)
      + biasblk m c t (ix2 (0 : Fin 1) q) = _
  rw [h4, biasblk_apply m c t q, Finset.sum_congr rfl fun k _ => congrArg (_ * ·) (btblk_apply m c t k q)]
  rfl

/-- WHAT A LAST-STRETCH POINT WRITES BACK is its block of the layer. -/
theorem flushed_eq (c : Dev nD) (t : Fin cfg0.N) (hf : (cfg0.win 5).flush t = true) :
    (dats m 0 c).flushed 5 t = ((cfg0.win 5).blk t).view.read (Elt Ideal) (flatResult m c) := by
  have h1 : t.val % 4 = 3 := (flush0_5 t).mp hf
  have h0 : ¬t.val % 4 = 0 := by omega
  have hN := lt_N t
  show (cfg0.win 5).cut (grid0.coords t) ((dats m 0 c).after 5 t) = _
  rw [after0_5, out_of_accs m c t h0 h1, (scratch_eq m c t.val t.isLt).1, (scratch_eq m c t.val t.isLt).2]
  show (k0_pay6 (btblk m c t) (accxaAt m c t.val) (biasblk m c t) (accAt m c t.val) : Vec Ideal S1024x1024 .f32)
      = fun y : S1024x1024.Idx => flatResult m c (((cfg0.win 5).blk t).view.emb y)
  funext y
  obtain ⟨p, q, rfl⟩ : ∃ (p q : Fin 1024), y = ix2 p q := ⟨y 0, y 1, eq_ix2 y⟩
  rw [emb5 t p q (by omega) (by omega)]
  exact out_entry m c t h1 p q (by omega) (by omega)

/-- THE RESULT OF THE KERNEL CALL: the layer over flattened rows. -/
theorem final5 (c : Dev nD) : (dats m 0 c).arrAt 5 cfg0.N = flatResult m c :=
  (dats m 0 c).arrAt_eq_of_cover 5 (flatResult m c) (flushed_eq m c) covered5

end Cert.KernelIdeal.Lora

end
-- ==== Proof.Host.lean ====
/-
  The host operations around the kernel call, read at one entry: before it the input is flattened to
  8192 rows (row bb * 2048 + s of the flattened input is row (bb, s)), B is transposed and the bias becomes a
  one-row matrix; after it the 8192 x 4096 result is given its three axes back.
-/
import proofs.«137640_j32100585571129_1_alg».proof.Proof.Blocks
import Idealize.ShloMosaic.Lib.Pipeline.Value
import Idealize.ShloMosaic.Lib.ValueIdx
import Idealize.ShloMosaic.Lib.StableHlo.Run

set_option maxRecDepth 16384

noncomputable section

namespace Cert.KernelIdeal.Lora

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

theorem xarr_apply (c : Dev nD) (bb : Fin 4) (s : Fin 2048) (d : Fin 4096) (h : bb.val * 2048 + s.val < 8192) :
    xarr m c (ix2 ⟨bb.val * 2048 + s.val, h⟩ d) = m ((c : Thread nD τ).loc main_arg0) (ix3 bb s d) := by
  -- The flattened input is the row-major recast of the input.
  have e : (xarr m c : S8192x4096.Idx → Elt F .f32)
      = shapeCast S8192x4096 (m ((c : Thread nD τ).loc main_arg0)) shapeCasts_S4x2048x4096_S8192x4096 := by
    show StableHlo.after hostOps0 (fun b => m (c, b)) (Proc.devRef .tc main_v0) = _
    after_results
    rfl
  refine (congrFun e _).trans ?_
  -- Entry (bb * 2048 + s, d) of 8192 x 4096 and entry (bb, s, d) of 4 x 2048 x 4096 have the same row-major
  -- position, (bb * 2048 + s) * 4096 + d.
  refine shapeCast_apply _ _ _ (ix3 bb s d) ?_
  rw [Shape.rowMajor_val_three, Shape.rowMajor_val_two]
  show (bb.val * 2048 + s.val) * 4096 + d.val = (bb.val * 2048 + s.val) * 4096 + d.val
  rfl

theorem warr_eq (c : Dev nD) : warr m c = m ((c : Thread nD τ).loc main_arg1) := V_main_arg1 m c

theorem aarr_eq (c : Dev nD) : aarr m c = m ((c : Thread nD τ).loc main_arg3) := V_main_arg3 m c

theorem btarr_apply (c : Dev nD) (k : Fin 16) (o : Fin 4096) :
    btarr m c (ix2 k o) = m ((c : Thread nD τ).loc main_arg4) (ix2 o k) := by
  -- The array is B with its two axes exchanged.
  have e : (btarr m c : S16x4096.Idx → Elt F .f32)
      = transpose S16x4096 [1, 0] (m ((c : Thread nD τ).loc main_arg4)) transposes_S4096x16_S16x4096_1_0 := by
    show StableHlo.after hostOps0 (fun b => m (c, b)) (Proc.devRef .tc main_v2) = _
    after_results
  refine (congrFun e _).trans ?_
  -- Result axis 0 is source axis 1 and result axis 1 is source axis 0: entry (k, o) reads B at (o, k).
  refine transpose_apply _ _ _ _ (ix2 o k) fun b => ?_
  match b with
  | ⟨0, _⟩ => rfl
  | ⟨1, _⟩ => rfl

theorem biasarr_apply (c : Dev nD) (o : Fin 4096) :
    biasarr m c (ix2 (0 : Fin 1) o) = m ((c : Thread nD τ).loc main_arg2) (ix1 o) := by
  -- The one-row bias is the row-major recast of the bias.
  have e : (biasarr m c : S1x4096.Idx → Elt F .f32)
      = shapeCast S1x4096 (m ((c : Thread nD τ).loc main_arg2)) shapeCasts_S4096_S1x4096 := by
    show StableHlo.after hostOps0 (fun b => m (c, b)) (Proc.devRef .tc main_v1) = _
    after_results
    rfl
  refine (congrFun e _).trans ?_
  -- Entry (0, o) of 1 x 4096 sits at position 0 * 4096 + o = o, the position of entry o of the bias.
  refine shapeCast_apply _ _ _ (ix1 o) ?_
  rw [Shape.rowMajor_val_one, Shape.rowMajor_val_two]
  show o.val = 0 * 4096 + o.val
  omega

theorem tail_apply (c : Dev nD) (bb : Fin 4) (s : Fin 2048) (o : Fin 4096) (h : bb.val * 2048 + s.val < 8192) :
    Pipeline.afterTail₀ cfgs (dats m) 0 (V0 m) [hostOps1] c main_v4 (ix3 bb s o)
      = (dats m 0 c).arrAt 5 cfg0.N (ix2 ⟨bb.val * 2048 + s.val, h⟩ o) := by
  -- What the last host operation writes is the row-major recast of the region's output array, the array of window 5
  -- as the region leaves it.
  have e : (Pipeline.afterTail₀ cfgs (dats m) 0 (V0 m) [hostOps1] c main_v4 : S4x2048x4096.Idx → Elt F .f32)
      = shapeCast S4x2048x4096 ((dats m 0 c).arrAt 5 cfg0.N) shapeCasts_S8192x4096_S4x2048x4096 := by
    have hw : Pipeline.withArrays (cfgs 0).spec c (V0 m c) (fun w => (dats m 0 c).arrAt w (cfgs 0).N)
          (Proc.devRef .tc main_v3) = (dats m 0 c).arrAt 5 cfg0.N :=
      Pipeline.withArrays_arr spec0 launch0.win.arr_inj c _ _ 5
    unfold Pipeline.afterTail₀
    show StableHlo.after hostOps1 _ (Proc.devRef .tc main_v4) = _
    after_results
    rw [hw]
    rfl
  refine (congrFun e _).trans ?_
  -- Entry (bb, s, o) of 4 x 2048 x 4096 and entry (bb * 2048 + s, o) of 8192 x 4096 have the same row-major
  -- position, (bb * 2048 + s) * 4096 + o.
  refine shapeCast_apply _ _ _ (ix2 ⟨bb.val * 2048 + s.val, h⟩ o) ?_
  rw [Shape.rowMajor_val_three, Shape.rowMajor_val_two]
  show (bb.val * 2048 + s.val) * 4096 + o.val = (bb.val * 2048 + s.val) * 4096 + o.val
  rfl

end Cert.KernelIdeal.Lora

end
-- ==== Proof.Result.lean ====
/-
  The layer as one array over the three-axis index set: what both programs end holding.
-/
import proofs.«137640_j32100585571129_1_alg».proof.Proof.Spec

noncomputable section

namespace Cert.Lora

open Idealize.ShloMosaic Idealize.ShloMosaic.ValueIdx

/-- Entry (bb, s, o) of the layer's result. -/
def layerArr (x : (⟨3, ![4, 2048, 4096]⟩ : Shape).Idx → EReal) (W : Mat 4096 4096)
    (b : (⟨1, ![4096]⟩ : Shape).Idx → EReal) (A : Mat 16 4096) (B : Mat 4096 16) :
    (⟨3, ![4, 2048, 4096]⟩ : Shape).Idx → EReal :=
  fun i => layer3 x W b A B ⟨(i 0).val, (i 0).isLt⟩ ⟨(i 1).val, (i 1).isLt⟩ ⟨(i 2).val, (i 2).isLt⟩

theorem layerArr_ix3 (x : (⟨3, ![4, 2048, 4096]⟩ : Shape).Idx → EReal) (W : Mat 4096 4096)
    (b : (⟨1, ![4096]⟩ : Shape).Idx → EReal) (A : Mat 16 4096) (B : Mat 4096 16)
    (bb : Fin 4) (s : Fin 2048) (o : Fin 4096) :
    layerArr x W b A B (ix3 bb s o) = layer3 x W b A B bb s o := rfl

end Cert.Lora

end
-- ==== Proof.KernelRun.lean ====
/-
  The idealized kernel program's run, read: its result is the layer of its five arguments.
  The kernel call leaves the layer over flattened rows of the flattened input, W, A, B transposed and the one-row
  bias; the closing reshape gives entry (bb, s, o) the flattened entry (bb * 2048 + s, o); the opening reshapes and
  the transpose are undone entry by entry; and the two orders of summation agree.
-/
import proofs.«137640_j32100585571129_1_alg».proof.Proof.Array
import proofs.«137640_j32100585571129_1_alg».proof.Proof.Host
import proofs.«137640_j32100585571129_1_alg».proof.Proof.Result

set_option maxRecDepth 16384

noncomputable section

namespace Cert.KernelIdeal.Lora

open Cert.KernelIdeal Cert.KernelIdeal.Gen Idealize.ShloMosaic Idealize.ShloMosaic.TcCoe Idealize.SL.Sem
open Idealize.ShloMosaic.ValueIdx Cert.Lora
open Idealize.ShloMosaic.Pipeline (Dat)

variable (m : (ℓ : Loc nD τ sig) → Buf (Elt Ideal) ℓ) (ρ : Dev nD → PrngReg)

/-- The program's result array, after the closing reshape, is the layer of the five arguments. -/
theorem result_eq (c : Dev nD) :
    Pipeline.afterTail₀ cfgs (dats m) 0 (V0 m) [hostOps1] c main_v4
      = layerArr (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨bb, s, o, rfl⟩ : ∃ (bb : Fin 4) (s : Fin 2048) (o : Fin 4096), i = ix3 bb s o := ⟨i 0, i 1, i 2, eq_ix3 i⟩
  have h : bb.val * 2048 + s.val < 8192 := by omega
  rw [tail_apply m c bb s o h, final5 m c, layerArr_ix3]
  show layer2 (xarr m c) (warr m c) (aarr m c) (btarr m c) (biasarr m c) ⟨bb.val * 2048 + s.val, h⟩ o = _
  rw [warr_eq m c, aarr_eq m c]
  exact layer2_eq_layer3 (xarr m c) (m ((c : Thread nD τ).loc main_arg1)) (m ((c : Thread nD τ).loc main_arg3)) (btarr m c) (biasarr m c)
    (m ((c : Thread nD τ).loc main_arg0)) (m ((c : Thread nD τ).loc main_arg2)) (m ((c : Thread nD τ).loc main_arg4)) bb s o ⟨bb.val * 2048 + s.val, h⟩
    (fun d => xarr_apply m c bb s d h) (fun k => btarr_apply m c k o) (biasarr_apply m c o)

/-- Every weakly fair execution of the idealized kernel program terminates with its result at the layer of the
    arguments and the arguments unchanged. -/
theorem run : θ_run defs (onTc (τ := τ) (main (F := Ideal))) ⟨m, fun _ => 0, ρ⟩ fun r => ∀ c : Dev nD,
      r.2.mem ((c : Thread nD τ).loc main_v4)
        = layerArr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.KernelIdeal.Lora

end
-- ==== Proof.Reference.lean ====
/-
  The reference program's result, read at one entry, is the layer.
-/
import proofs.«137640_j32100585571129_1_alg».proof.Proof.Gen.ReferenceIdeal.Read
import proofs.«137640_j32100585571129_1_alg».proof.Proof.Spec

noncomputable section

open scoped BigOperators

namespace Cert.ReferenceIdeal.Lora

open Cert.ReferenceIdeal Cert.ReferenceIdeal.Gen Idealize.ShloMosaic Idealize.ShloMosaic.ValueIdx

theorem ref_eq_layer3 (x : (⟨S4x2048x4096, .f32⟩ : BufTy).Contents (Elt Ideal)) (W : (⟨S4096x4096, .f32⟩ : BufTy).Contents (Elt Ideal))
    (b : (⟨S4096, .f32⟩ : BufTy).Contents (Elt Ideal)) (A : (⟨S16x4096, .f32⟩ : BufTy).Contents (Elt Ideal))
    (B : (⟨S4096x16, .f32⟩ : BufTy).Contents (Elt Ideal)) (bb : Fin 4) (s : Fin 2048) (o : Fin 4096) :
    Cert.ReferenceIdeal.Read.val_main_v8 (F := Ideal) x W b A B (ix3 bb s o) = Cert.Lora.layer3 x W b A B bb s o := by
  -- The index functions of the three contractions and of the two bias broadcasts, at the entry (bb, s, o),
  -- are the coordinate constructors: each equation holds coordinate by coordinate.
  have e0l : ∀ d : Fin 4096, Read.lidx_main_v0 (ix3 bb s o) d = ix3 bb s d := fun d => funext fun a => by
    match a with | ⟨0, _⟩ => rfl | ⟨1, _⟩ => rfl | ⟨2, _⟩ => rfl
  have e0r : ∀ d : Fin 4096, Read.ridx_main_v0 (ix3 bb s o) d = ix2 o d := fun d => funext fun a => by
    match a with | ⟨0, _⟩ => rfl | ⟨1, _⟩ => rfl
  have eb : Read.idx_main_v1 (Read.idx_main_v2 (ix3 bb s o)) = ix1 o := funext fun a => by
    match a with | ⟨0, _⟩ => rfl
  have e5l : ∀ k : Fin 16, Read.lidx_main_v5 (ix3 bb s o) k = ix3 bb s k := fun k => funext fun a => by
    match a with | ⟨0, _⟩ => rfl | ⟨1, _⟩ => rfl | ⟨2, _⟩ => rfl
  have e5r : ∀ k : Fin 16, Read.ridx_main_v5 (ix3 bb s o) k = ix2 o k := fun k => funext fun a => by
    match a with | ⟨0, _⟩ => rfl | ⟨1, _⟩ => rfl
  have e4l : ∀ (k : Fin 16) (d : Fin 4096), Read.lidx_main_v4 (ix3 bb s k) d = ix3 bb s d :=
    fun k d => funext fun a => by
      match a with | ⟨0, _⟩ => rfl | ⟨1, _⟩ => rfl | ⟨2, _⟩ => rfl
  have e4r : ∀ (k : Fin 16) (d : Fin 4096), Read.ridx_main_v4 (ix3 bb s k) d = ix2 k d :=
    fun k d => funext fun a => by
      match a with | ⟨0, _⟩ => rfl | ⟨1, _⟩ => rfl
  unfold Cert.Lora.layer3
  -- Read the result outermost first: the two sums, the product with the constant, the base contraction,
  -- the bias through its two broadcasts, the outer contraction of the low-rank term, and the constant 2.0.
  rw [Read.val_main_v8_apply, Read.val_main_v3_apply, Read.val_main_v7_apply, Read.val_main_v0_apply,
    Read.val_main_v2_apply, Read.val_main_v1_apply, Read.val_main_v5_apply, Read.val_main_v6_apply,
    Read.val_main_cst_apply]
  -- The inner contraction sits under the sum over the rank; then every index is a coordinate constructor.
  simp only [e0l, e0r, eb, e5l, e5r, Read.val_main_v4_apply, e4l, e4r]
  -- Addition and multiplication of the ideal floats are those of the extended reals, and the word of 2.0 is `two`.
  rfl

end Cert.ReferenceIdeal.Lora

end
-- ==== Proof.lean ====
/-
  The low-rank-adapted linear layer: the kernel against its reference, over the extended reals.

  With 8192 = 4 * 2048 rows, contraction extent 4096 and rank 16 both programs compute
      out[r, o] = sum_d x[r, d] * W[o, d]  +  b[o]  +  2 * sum_k (sum_d x[r, d] * A[k, d]) * B[o, k].
  The reference does it with three whole contractions, in the order (base + bias) + delta * 2.
  The kernel flattens the rows, transposes B, and walks a grid of 8 row blocks, 4 column blocks and 4 stretches of
  the contraction axis (innermost), keeping two accumulators across the stretches of one (row, column) block:
  the base product and the projection onto A. After stretch k of a block they hold the partial sums over stretches
  0..k (induction over the 128 grid points); at the last stretch the kernel writes
  (base + (projection * B-transposed) * 2) + bias into the output block, and the 32 output blocks tile the result.
  A sum over 4096 positions is the sum of its four stretches of 1024, the closing reshape restores the three axes,
  and (a + c) + b = (a + b) + c. Only commutativity and associativity of addition are used, so the precondition
  (finite inputs) is never opened.

  The three frame claims are the generated frame runs (the reference's is its generated run with the result
  dropped); the idealization rewrote nothing, so `preserves` is `True`; `algebraic` pairs the kernel's run, read in
  Proof/KernelRun.lean, with the reference's generated run, read entry by entry in Proof/Reference.lean.
-/
import proofs.«137640_j32100585571129_1_alg».proof.Defs
import proofs.«137640_j32100585571129_1_alg».proof.Proof.Gen.Kernel
import proofs.«137640_j32100585571129_1_alg».proof.Proof.Gen.Kernel.Skeleton
import proofs.«137640_j32100585571129_1_alg».proof.Proof.Gen.Kernel.Launch
import proofs.«137640_j32100585571129_1_alg».proof.Proof.Gen.Kernel.Points
import proofs.«137640_j32100585571129_1_alg».proof.Proof.Gen.Kernel.Frame
import proofs.«137640_j32100585571129_1_alg».proof.Proof.Gen.KernelIdeal
import proofs.«137640_j32100585571129_1_alg».proof.Proof.Gen.KernelIdeal.Skeleton
import proofs.«137640_j32100585571129_1_alg».proof.Proof.Gen.KernelIdeal.Launch
import proofs.«137640_j32100585571129_1_alg».proof.Proof.Gen.KernelIdeal.Points
import proofs.«137640_j32100585571129_1_alg».proof.Proof.Gen.KernelIdeal.Frame
import proofs.«137640_j32100585571129_1_alg».proof.Proof.Gen.ReferenceIdeal
import proofs.«137640_j32100585571129_1_alg».proof.Proof.Gen.Pre_finite_inputs
import proofs.«137640_j32100585571129_1_alg».proof.Proof.Gen.ReferenceIdeal.Run
import proofs.«137640_j32100585571129_1_alg».proof.Proof.Gen.ReferenceIdeal.Read
import proofs.«137640_j32100585571129_1_alg».proof.Proof.KernelRun
import proofs.«137640_j32100585571129_1_alg».proof.Proof.Reference
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel call: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the (agreeing) arguments. -/
theorem algebraic : Cert.algebraic_KernelIdeal_ReferenceIdeal := by
  intro m ρ m' ρ' _ hagree
  refine ⟨fun c => Cert.Lora.layerArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Lora.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2.1, (hagree c).2.2.2.1,
    (hagree c).2.2.2.2]
  funext i
  obtain ⟨bb, s, o, rfl⟩ : ∃ (bb : Fin 4) (s : Fin 2048) (o : Fin 4096), i = ix3 bb s o := ⟨i 0, i 1, i 2, eq_ix3 i⟩
  exact Cert.ReferenceIdeal.Lora.ref_eq_layer3 _ _ _ _ _ bb s o

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
